-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S512x128 : Shape := ⟨2, ![512, 128]⟩
abbrev S512 : Shape := ⟨1, ![512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S131072x128 .f32) (main_arg1 : FVec F S512x128 .f32) (main_arg2 : FVec F S512 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S131072x128 : Shape := ⟨2, ![131072, 128]⟩
abbrev S512x128 : Shape := ⟨2, ![512, 128]⟩
abbrev S512 : Shape := ⟨1, ![512]⟩
abbrev S_ : Shape := ⟨0, ![]⟩
abbrev S1x512 : Shape := ⟨2, ![1, 512]⟩
abbrev S131072x512 : Shape := ⟨2, ![131072, 512]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩
abbrev S128x512 : Shape := ⟨2, ![128, 512]⟩

abbrev nBuf : Space → Nat
  | .hbm => 9
  | .vmem => 6
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S131072x512, .f32⟩
  | .local _ .vmem, ⟨0, _⟩ => ⟨S2048x128, .f32⟩
  | .local _ .vmem, ⟨1, _⟩ => ⟨S2048x128, .f32⟩
  | .local _ .vmem, ⟨2, _⟩ => ⟨S512x128, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512 : S_.BroadcastsInDim S512 (![] : Fin 0 → Fin S512.rank)
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  inb_S512x128_S512x128_0_0 : ∀ a, (![0, 0] : Fin 2 → Nat) a + S512x128.size a ≤ S512x128.size a
  h_S512x128 : 0 < S512x128.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x128_S2048 : S2048x128.Reduces [1] S2048
  shapeCasts_S2048_S2048x1 : S2048.ShapeCasts S2048x1
  reduces_S512x128_S512 : S512x128.Reduces [1] S512
  bitsLt_bf16_f32 : FTy.bits .bf16 < FTy.bits .f32
  transposes_S512x128_p1_0_S128x512 : S512x128.Transposes [1, 0] S128x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x128 : Shape := ⟨2, ![131072, 128]⟩
abbrev S512x128 : Shape := ⟨2, ![512, 128]⟩
abbrev S512 : Shape := ⟨1, ![512]⟩
abbrev S_ : Shape := ⟨0, ![]⟩
abbrev S131072 : Shape := ⟨1, ![131072]⟩
abbrev S131072x1 : Shape := ⟨2, ![131072, 1]⟩
abbrev S128x512 : Shape := ⟨2, ![128, 512]⟩
abbrev S131072x512 : Shape := ⟨2, ![131072, 512]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512, .f32⟩
  | .hbm, ⟨3, _⟩ => ⟨S131072x128, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S512x128, .f32⟩
  | .hbm, ⟨8, _⟩ => ⟨S_, .f32⟩
  | .hbm, ⟨9, _⟩ => ⟨S512, .f32⟩
  | .hbm, ⟨10, _⟩ => ⟨S128x512, .f32⟩
  | .hbm, ⟨11, _⟩ => ⟨S131072x512, .f32⟩
  | .hbm, ⟨12, _⟩ => ⟨S_, .f32⟩
  | .hbm, ⟨13, _⟩ => ⟨S131072x512, .f32⟩
  | .hbm, ⟨14, _⟩ => ⟨S131072x512, .f32⟩
  | .hbm, ⟨15, _⟩ => ⟨S131072x512, .f32⟩
  | .hbm, ⟨16, _⟩ => ⟨S131072x512, .f32⟩
  | .hbm, ⟨17, _⟩ => ⟨S1x512, .f32⟩
  | .hbm, ⟨18, _⟩ => ⟨S131072x512, .f32⟩
  | .hbm, ⟨19, _⟩ => ⟨S131072x512, .f32⟩
  | .hbm, ⟨20, _⟩ => ⟨S_, .f32⟩
  | .hbm, ⟨21, _⟩ => ⟨S131072x512, .f32⟩
  | .hbm, ⟨22, _⟩ => ⟨S131072x512, .f32⟩
  | .hbm, ⟨23, _⟩ => ⟨S131072x512, .f32⟩
  | .hbm, ⟨24, _⟩ => ⟨S512, .f32⟩
  | .hbm, ⟨25, _⟩ => ⟨S1x512, .f32⟩
  | .hbm, ⟨26, _⟩ => ⟨S131072x512, .f32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S131072x512, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S512x128_S512_d1 : S512x128.ReducesTo [1] S512
  transposes_S512x128_S128x512_1_0 : S512x128.Transposes [1, 0] S128x512
  bcast_S_S131072x512 : S_.BroadcastsInDim S131072x512 (![] : Fin 0 → Fin S131072x512.rank)
  bcast_S131072x1_S131072x512_0_1 : S131072x1.BroadcastsInDim S131072x512 (![0, 1] : Fin 2 → Fin S131072x512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.RbfSpec.lean ====
/-
  The radial-basis layer as one function of its three arrays, index by index, on the extended reals.

  For a sample row `p` (of 131072) and a centre `q` (of 512), over 128 features, the squared distance is taken
  in its expanded form
      d²(p, q) = Σₖ x[p,k]² − 2 · Σₖ x[p,k]·c[q,k] + Σₖ c[q,k]²,
  clamped below at zero, its root scaled by the centre's width, and the output is
      out[p, q] = exp (−(r · s)²),   r = √(max d² 0).
  The two programs differ only in how the scale enters: one multiplies the root by the reciprocal `1 / exp ℓ[q]`,
  the other divides the root by `exp ℓ[q]`; and one writes the negation as `0 − y`, the other as `−y`.
  For a finite log-width `ℓ[q]` the exponential is a positive real, and on the extended reals a quotient by a
  nonzero real IS the product with its reciprocal, at the infinities too; `0 − y = −y` holds for every extended
  real. So the two forms are one function wherever every log-width is finite (`rbfDiv_eq_rbfMul`).
-/
import Idealize.ShloMosaic.PureOps.Ideal
import Idealize.ShloMosaic.PureOps.Ideal.Laws
import Idealize.ShloMosaic.Lib.ValueIdx
import Idealize.ShloMosaic.Lib.IdealHost

noncomputable section

namespace Cert.Rbf

open Idealize.ShloMosaic Idealize.ShloMosaic.ValueIdx

/-- The samples: 131072 rows of 128 features. -/
abbrev SX : Shape := ⟨2, ![131072, 128]⟩
/-- The centres: 512 rows of 128 features. -/
abbrev SC : Shape := ⟨2, ![512, 128]⟩
/-- The log-widths, one per centre. -/
abbrev SL : Shape := ⟨1, ![512]⟩
/-- The output: one activation per sample and centre. -/
abbrev SO : Shape := ⟨2, ![131072, 512]⟩

/-- The expanded squared distance between sample row `p` and centre `q`: the row's squared norm, less twice the
    inner product, plus the centre's squared norm (the literal is the float `2.0`, the same word in both programs). -/
def sqDist (x : SX.Idx → EReal) (c : SC.Idx → EReal) (p : Fin 131072) (q : Fin 512) : EReal :=
  (∑ k : Fin 128, x (ix2 p k) * x (ix2 p k))
    - Ideal.ofBits .f32 0x40000000#32 * (∑ k : Fin 128, x (ix2 p k) * c (ix2 q k))
    + ∑ k : Fin 128, c (ix2 q k) * c (ix2 q k)

/-- The distance itself: the root of the squared distance clamped below at the float zero. -/
def dist (x : SX.Idx → EReal) (c : SC.Idx → EReal) (p : Fin 131072) (q : Fin 512) : EReal :=
  Ideal.sqrt (max (sqDist x c p q) (Ideal.ofBits .f32 0x00000000#32))

/-- The activation with the width entering as a RECIPROCAL FACTOR `1 / exp ℓ[q]` and the negation written `0 − y`. -/
def rbfMul (x : SX.Idx → EReal) (c : SC.Idx → EReal) (l : SL.Idx → EReal) : SO.Idx → EReal := fun i =>
  Ideal.exp (Ideal.ofBits .f32 0x00000000#32
    - dist x c (i 0) (i 1) * Ideal.div (Ideal.ofBits .f32 0x3F800000#32) (Ideal.exp (l (ix1 (i 1))))
      * (dist x c (i 0) (i 1) * Ideal.div (Ideal.ofBits .f32 0x3F800000#32) (Ideal.exp (l (ix1 (i 1))))))

/-- The activation with the width entering as a DIVISOR `exp ℓ[q]` and the negation written `−y`. -/
def rbfDiv (x : SX.Idx → EReal) (c : SC.Idx → EReal) (l : SL.Idx → EReal) : SO.Idx → EReal := fun i =>
  Ideal.exp (-(Ideal.div (dist x c (i 0) (i 1)) (Ideal.exp (l (ix1 (i 1))))
      * Ideal.div (dist x c (i 0) (i 1)) (Ideal.exp (l (ix1 (i 1))))))

/-- For a real `r`, multiplying by the reciprocal of `exp r` is dividing by `exp r`, for EVERY extended real `a`:
    `exp r` is a nonzero real, so both sides are `a · (1 / exp r)`. -/
theorem mul_recip_exp (a : EReal) (r : ℝ) :
    a * Ideal.div (Ideal.ofBits .f32 0x3F800000#32) (Ideal.exp (r : EReal)) = Ideal.div a (Ideal.exp (r : EReal)) := by
  rw [Ideal.exp_coe, Ideal.div_coe (Real.exp_pos r).ne', Ideal.div_coe (Real.exp_pos r).ne', Ideal.ofBits_one_f32, one_mul]

/-- Subtracting from the float zero is negating, on every extended real. -/
theorem zero_word_sub (y : EReal) : Ideal.ofBits .f32 0x00000000#32 - y = -y := by
  rw [Ideal.ofBits_zero_f32, zero_sub]

/-- A sum started from the float zero is the sum. -/
theorem zero_word_add (s : EReal) : Ideal.ofBits .f32 0x00000000#32 + s = s := by
  rw [Ideal.ofBits_zero_f32, zero_add]

/-- THE LAW that joins the two programs: where every log-width is a real number, the divisor form and the
    reciprocal-factor form are the same function. -/
theorem rbfDiv_eq_rbfMul (x : SX.Idx → EReal) (c : SC.Idx → EReal) (l : SL.Idx → EReal)
    (hl : ∀ q : Fin 512, ∃ r : ℝ, l (ix1 q) = (r : EReal)) : rbfDiv x c l = rbfMul x c l := by
  funext i
  obtain ⟨r, hr⟩ := hl (i 1)
  unfold rbfDiv rbfMul
  rw [hr, zero_word_sub, mul_recip_exp]

end Cert.Rbf

end
-- ==== Proof.RefValue.lean ====
/-
  What the reference computes, read at an output index (p, q).

  The reference is a straight line of whole-array operations; read one operation at a time (the generated stage
  lemmas), its last array at index `i = (p, q)` is
      exp (−(√(max (Σₖ x[p,k]² − 2·Σₖ x[p,k]·c[q,k] + Σₖ c[q,k]²) 0) / exp ℓ[q])²),
  the divisor form `Rbf.rbfDiv`. Each layout operation on the way (keep-dims broadcasts, the transpose of the
  centres, the scalar splats) only moves an index: the composed index maps are the plain coordinates `(p, k)`,
  `(q, k)` and `q` (`row_of` … `width_of`), and each sum's float-zero start drops out.
-/
import proofs.«118641_j68968584839825_1_alg».proof.Proof.Gen.ReferenceIdeal.Read
import proofs.«118641_j68968584839825_1_alg».proof.Proof.RbfSpec

noncomputable section

namespace Cert.Rbf.Reference

open Cert.ReferenceIdeal Cert.ReferenceIdeal.Gen Cert.ReferenceIdeal.Read
open Idealize.ShloMosaic Idealize.ShloMosaic.ValueIdx Cert.Rbf

/-- The sample entry that the row's squared norm sums at `k`, seen from output index `i`: row `i 0`, feature `k`. -/
theorem row_of (i : S131072x512.Idx) (k : Fin 128) : idx_main_v1 (idx_main_v2 (idx_main_v9 i)) k = ix2 (i 0) k :=
  funext fun a => Fin.ext (by match a with | ⟨0, _⟩ => rfl | ⟨1, _⟩ => rfl)

/-- The inner product's left factor at `k`: the same sample entry. -/
theorem lhs_of (i : S131072x512.Idx) (k : Fin 128) : lidx_main_v6 i k = ix2 (i 0) k :=
  funext fun a => Fin.ext (by match a with | ⟨0, _⟩ => rfl | ⟨1, _⟩ => rfl)

/-- The inner product's right factor at `k`, through the transpose: centre `i 1`, feature `k`. -/
theorem rhs_of (i : S131072x512.Idx) (k : Fin 128) : idx_main_v5 (ridx_main_v6 i k) = ix2 (i 1) k :=
  funext fun a => Fin.ext (by match a with | ⟨0, _⟩ => rfl | ⟨1, _⟩ => rfl)

/-- The centre entry that the centre's squared norm sums at `k`. -/
theorem centre_of (i : S131072x512.Idx) (k : Fin 128) : idx_main_v4 (idx_main_v11 (idx_main_v12 i)) k = ix2 (i 1) k :=
  funext fun a => Fin.ext (by match a with | ⟨0, _⟩ => rfl | ⟨1, _⟩ => rfl)

/-- The log-width read for output index `i`: centre `i 1`'s. -/
theorem width_of (i : S131072x512.Idx) : idx_main_v18 (idx_main_v19 i) = ix1 (i 1) :=
  funext fun a => Fin.ext (by match a with | ⟨0, _⟩ => rfl)

/-- THE REFERENCE'S RESULT is the divisor form of the activation, index by index. -/
theorem result_eq (x : FVec Ideal S131072x128 .f32) (c : FVec Ideal S512x128 .f32) (l : FVec Ideal S512 .f32) :
    val_main_v23 (F := Ideal) x c l = rbfDiv x c l := by
  funext i
  rw [val_main_v23_apply, val_main_v22_apply, val_main_v21_apply, val_main_v20_apply, val_main_v19_apply,
    val_main_v18_apply, val_main_v17_apply, val_main_v16_apply, val_main_v15_apply, val_main_v14_apply,
    val_main_cst_2_apply, val_main_v13_apply, val_main_v12_apply, val_main_v11_apply, val_main_v4_apply,
    val_main_cst_0_apply, val_main_v10_apply, val_main_v9_apply, val_main_v2_apply, val_main_v1_apply,
    val_main_cst_apply, val_main_v8_apply, val_main_v7_apply, val_main_cst_1_apply, val_main_v6_apply]
  simp only [val_main_v0_apply, val_main_v3_apply, val_main_v5_apply, row_of, lhs_of, rhs_of, centre_of, width_of,
    Ideal.hostUnary_exp_def, Ideal.hostUnary_sqrt_def, Ideal.hostNegf_def, Ideal.negf_def, Ideal.hostDivf_def,
    Ideal.mulf_def, Ideal.subf_def, Ideal.addf_def, Ideal.maximumf_def, Ideal.ofBits_def, zero_word_add]
  rfl

end Cert.Rbf.Reference

end
-- ==== Proof.KernelValue.lean ====
/-
  What the kernel's body stores, read at an index of its output block.

  The body works on one block of 2048 sample rows against all 512 centres. At block index (p, q) — row `p` of the
  block, centre `q` — the stored value is
      exp (0 − (√(max (Σₖ a[p,k]² − 2·Σₖ a[p,k]·b[q,k] + Σₖ b[q,k]²) 0) · s[0,q])²)
  where `a` is the block of samples, `b` the centres and `s` the row of reciprocal widths. On the extended reals
  the narrowing of the matrix product's operands to a shorter float format is the identity, the product into a
  zero accumulator is the plain sum over the 128 features, and each lane reduction is the plain sum; the remaining
  operations only re-lay values (a row sum kept as a column then spread over the columns, a vector viewed as one row
  then spread over the rows, a transpose).
-/
import proofs.«118641_j68968584839825_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Kernel

open Cert.KernelIdeal Cert.KernelIdeal.Gen Idealize.ShloMosaic Idealize.ShloMosaic.ValueIdx

/-! ## Pointwise operations the library has no index lemma for -/

theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl
theorem scalar_ofBits {φ : FTy} (b : BitVec φ.bits) : Scalar.ofBits (F := Ideal) φ b = Ideal.ofBits φ b := rfl

/-! ## The re-laid reductions -/

/-- A block's row sums, kept as a column and spread over the 512 columns: at (p, q) the sum of row `p`. -/
theorem rowSum_spread (v : FVec Ideal S2048x128 .f32) (h : S2048x128.Reduces [1] S2048) (hφ : FKind.Formats .f32)
    (hacc : (0x00000000#32 : BitVec 32) = FKind.add.neutral .f32 hφ) (hc : S2048.ShapeCasts S2048x1)
    (hb : S2048x1.Broadcasts S2048x512) (p : Fin 2048) (q : Fin 512) :
    broadcastTo S2048x512 (shapeCast S2048x1 (multiReduction .add [1] S2048 v 0x00000000#32 h hφ hacc) hc) hb (ix2 p q)
      = ∑ k : Fin 128, v (ix2 p k) := by
  refine (broadcastTo_apply _ hb (ix2 p q) (ix2 p (0 : Fin 1)) fun a => ?_).trans ?_
  · match a with
    | ⟨0, _⟩ => show p.val = if (2048 : Nat) = 1 then 0 else p.val; rw [if_neg (by decide)]
    | ⟨1, _⟩ => show (0 : Nat) = if (1 : Nat) = 1 then 0 else q.val; rw [if_pos rfl]
  refine (shapeCast_apply _ hc (ix2 p (0 : Fin 1)) (ix1 p) ?_).trans ?_
  · rw [Shape.rowMajor_val_one, Shape.rowMajor_val_two]
    show p.val = p.val * 1 + 0
    omega
  refine (Ideal.multiReduction_add_single v 0x00000000#32 h hφ hacc (ix1 p)).trans ?_
  exact Finset.sum_congr rfl fun k _ => congrArg v (funext fun a => Fin.ext (by
    match a with | ⟨0, _⟩ => rfl | ⟨1, _⟩ => rfl))

/-- The centres' row sums, viewed as one row and spread over the 2048 rows: at (p, q) the sum of centre `q`'s row. -/
theorem centreSum_spread (v : FVec Ideal S512x128 .f32) (h : S512x128.Reduces [1] S512) (hφ : FKind.Formats .f32)
    (hacc : (0x00000000#32 : BitVec 32) = FKind.add.neutral .f32 hφ) (hc : S512.ShapeCasts S1x512)
    (hb : S1x512.Broadcasts S2048x512) (p : Fin 2048) (q : Fin 512) :
    broadcastTo S2048x512 (shapeCast S1x512 (multiReduction .add [1] S512 v 0x00000000#32 h hφ hacc) hc) hb (ix2 p q)
      = ∑ k : Fin 128, v (ix2 q k) := by
  refine (broadcastTo_1b_ab_apply _ hb p q).trans ?_
  refine (shapeCast_a_1a_apply _ hc (0 : Fin 1) q).trans ?_
  refine (Ideal.multiReduction_add_single v 0x00000000#32 h hφ hacc (ix1 q)).trans ?_
  exact Finset.sum_congr rfl fun k _ => congrArg v (funext fun a => Fin.ext (by
    match a with | ⟨0, _⟩ => rfl | ⟨1, _⟩ => rfl))

/-- The row of reciprocal widths spread over the 2048 rows: at (p, q) its entry `q`. -/
theorem width_spread (v : FVec Ideal S1x512 .f32) (hc : S1x512.ShapeCasts S1x512) (hb : S1x512.Broadcasts S2048x512)
    (p : Fin 2048) (q : Fin 512) :
    broadcastTo S2048x512 (shapeCast S1x512 v hc) hb (ix2 p q) = v (ix2 (0 : Fin 1) q) := by
  rw [shapeCast_self]
  exact broadcastTo_1b_ab_apply v hb p q

/-! ## The matrix product -/

theorem lhs_axis0 (i : S2048x512.Idx) (k : dot_S2048x128_S128x512_S2048x512_1_0_0_1_n_n.contr.Idx) :
    (dot_S2048x128_S128x512_S2048x512_1_0_0_1_n_n.lhsIdx i k 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhs_axis1 (i : S2048x512.Idx) (k : dot_S2048x128_S128x512_S2048x512_1_0_0_1_n_n.contr.Idx) :
    (dot_S2048x128_S128x512_S2048x512_1_0_0_1_n_n.lhsIdx i k 1).val = (k ⟨0, by decide⟩).val :=
  dot_S2048x128_S128x512_S2048x512_1_0_0_1_n_n.lhsIdx_val_of_single rfl i k
theorem rhs_axis0 (i : S2048x512.Idx) (k : dot_S2048x128_S128x512_S2048x512_1_0_0_1_n_n.contr.Idx) :
    (dot_S2048x128_S128x512_S2048x512_1_0_0_1_n_n.rhsIdx i k 0).val = (k ⟨0, by decide⟩).val :=
  dot_S2048x128_S128x512_S2048x512_1_0_0_1_n_n.rhsIdx_val_of_single rfl i k
theorem rhs_axis1 (i : S2048x512.Idx) (k : dot_S2048x128_S128x512_S2048x512_1_0_0_1_n_n.contr.Idx) :
    (dot_S2048x128_S128x512_S2048x512_1_0_0_1_n_n.rhsIdx i k 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The block's samples against the transposed centres, into a zero accumulator: at (p, q) the inner product of
    sample row `p` and centre `q` over the 128 features (the narrowing of both operands is the identity here). -/
theorem cross_apply (x0 : FVec Ideal S2048x128 .f32) (x1 : FVec Ideal S512x128 .f32) (hlt : FTy.bits .bf16 < FTy.bits .f32)
    (ht : S512x128.Transposes [1, 0] S128x512) (p : Fin 2048) (q : Fin 512) :
    matmul dot_S2048x128_S128x512_S2048x512_1_0_0_1_n_n none (truncf .bf16 x0 hlt) (transpose S128x512 [1, 0] (truncf .bf16 x1 hlt) ht)
        (constant S2048x512 .f32 0x00000000#32) (ix2 p q)
      = ∑ k : Fin 128, x0 (ix2 p k) * x1 (ix2 q k) := by
  simp only [matmul]
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 p q) ((contrEquiv1 dot_S2048x128_S128x512_S2048x512_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2048x128_S128x512_S2048x512_1_0_0_1_n_n.rhsIdx (ix2 p q) ((contrEquiv1 dot_S2048x128_S128x512_S2048x512_1_0_0_1_n_n 128 rfl rfl).symm k) = ix2 k q := funext fun a => Fin.ext (by
    match a with
    | ⟨0, _⟩ => exact (rhs_axis0 _ _).trans hk
    | ⟨1, _⟩ => exact rhs_axis1 _ _)
  rw [el, er, transpose_apply [1, 0] (truncf .bf16 x1 hlt) ht (ix2 k q) (ix2 q k) (fun b => match b with
    | ⟨0, _⟩ => rfl
    | ⟨1, _⟩ => rfl)]
  rfl

/-! ## The stored value -/

/-- The squared distance between row `p` of a block of samples `a` and centre `q` of `b`, expanded. -/
def blockSqDist (a : FVec Ideal S2048x128 .f32) (b : FVec Ideal S512x128 .f32) (p : Fin 2048) (q : Fin 512) : EReal :=
  (∑ k : Fin 128, a (ix2 p k) * a (ix2 p k))
    - Ideal.ofBits .f32 0x40000000#32 * (∑ k : Fin 128, a (ix2 p k) * b (ix2 q k))
    + ∑ k : Fin 128, b (ix2 q k) * b (ix2 q k)

/-- The activation the body stores at (p, q) of its output block, from the block of samples `a`, the centres `b`
    and the row of reciprocal widths `s`. -/
def blockAct (a : FVec Ideal S2048x128 .f32) (b : FVec Ideal S512x128 .f32) (s : FVec Ideal S1x512 .f32)
    (p : Fin 2048) (q : Fin 512) : EReal :=
  Ideal.exp (Ideal.ofBits .f32 0x00000000#32
    - Ideal.sqrt (max (blockSqDist a b p q) (Ideal.ofBits .f32 0x00000000#32)) * s (ix2 (0 : Fin 1) q)
      * (Ideal.sqrt (max (blockSqDist a b p q) (Ideal.ofBits .f32 0x00000000#32)) * s (ix2 (0 : Fin 1) q)))

/-- THE BODY'S STORED VALUE at (p, q) is that activation. -/
theorem pay_apply (x0 : FVec Ideal S2048x128 .f32) (x1 : FVec Ideal S512x128 .f32) (x2 : FVec Ideal S1x512 .f32)
    (p : Fin 2048) (q : Fin 512) :
    k0_pay1 (F := Ideal) x0 x1 x2 (ix2 p q) = blockAct x0 x1 x2 p q := by
  unfold k0_pay1 blockAct blockSqDist
  simp only [exp_apply, sqrt_apply, subf_apply, mulf_apply, addf_apply, maximumf_apply, broadcast_apply, scalar_ofBits,
    width_spread]
  have e1 := rowSum_spread (mulf x0 x0) reduces_S2048x128_S2048 (.inl rfl) rfl shapeCasts_S2048_S2048x1
    broadcasts_S2048x1_S2048x512 p q
  have e2 := cross_apply x0 x1 bitsLt_bf16_f32 transposes_S512x128_p1_0_S128x512 p q
  have e3 := centreSum_spread (mulf x1 x1) reduces_S512x128_S512 (.inl rfl) rfl shapeCasts_S512_S1x512
    broadcasts_S1x512_S2048x512 p q
  simp only [mulf_apply] at e1 e3
  rw [e1, e2, e3]

end Cert.Rbf.Kernel

end
-- ==== Proof.KernelArray.lean ====
/-
  From the blocks the grid points write back to the whole output array.

  Grid point `t` (of 64) stages rows `2048·t … 2048·t + 2047` of the samples, all the centres and the whole row of
  reciprocal widths, and writes back rows `2048·t … 2048·t + 2047` of the output. The row of reciprocal widths is
  itself computed before the launch: entry `q` is `1 / exp ℓ[q]`. So what point `t` writes back is block `t` of ONE
  function of the three argument arrays — the reciprocal-factor form `Rbf.rbfMul` —, the 64 blocks tile the output,
  and the output array ends holding that function.
-/
import proofs.«118641_j68968584839825_1_alg».proof.Proof.Gen.KernelIdeal.Value
import proofs.«118641_j68968584839825_1_alg».proof.Proof.KernelValue
import proofs.«118641_j68968584839825_1_alg».proof.Proof.RbfSpec
import Idealize.ShloMosaic.Lib.StableHlo.Run
import Idealize.ShloMosaic.Lib.ValueLayout

set_option maxRecDepth 16384

noncomputable section

namespace Cert.Rbf.Array

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Rbf Cert.Rbf.Kernel

variable (m : (ℓ : Loc nD τ sig) → Buf (Elt Ideal) ℓ) (ρ : Dev nD → PrngReg)

theorem hz : (![0, 0] : Fin 2 → Nat) = fun _ => 0 := funext fun a => by fin_cases a <;> rfl

/-! ## The row of reciprocal widths, as the launch finds it -/

/-- The array the third window stages is computed before the launch from the log-widths: the splat of one divided
    by their exponentials, viewed as one row. -/
theorem widths_entry (c : Dev nD) :
    (V m c main_v3 : S1x512.Idx → EReal)
      = shapeCast S1x512 (Host.divf (F := Ideal) (broadcastInDim S512 ![] bcast_S_S512 (constant (F := Ideal) S_ .f32 0x3F800000#32))
          (Host.exp (F := Ideal) (m ((c : Thread nD τ).loc main_arg2)))) shapeCasts_S512_S1x512 := by
  dsimp only [V, hostOps0]; after_results; rfl

/-- Its entry for centre `q` is `1 / exp ℓ[q]`. -/
theorem widths_at (c : Dev nD) (q : Fin 512) :
    (V m c main_v3 : S1x512.Idx → EReal) (ix2 (0 : Fin 1) q)
      = Ideal.div (Ideal.ofBits .f32 0x3F800000#32) (Ideal.exp ((m ((c : Thread nD τ).loc main_arg2)) (ix1 q))) := by
  rw [widths_entry]
  exact shapeCast_a_1a_apply _ shapeCasts_S512_S1x512 (0 : Fin 1) q

/-! ## The windows' index maps, decided over the 64 points -/

/-- The sample window moves with the output window along the rows; every other block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 63 :=
  (by decide +kernel : ∀ t : Fin grid0.N, _)

/-- Every one of the 64 row blocks of the output is some point's. -/
theorem idx_onto : ∀ b : Fin 64, ∃ t : Fin cfg0.N, win0_3.index t = ![b.val, 0] :=
  (by decide +kernel : ∀ b : Fin 64, ∃ t : Fin grid0.N, win0_3.index t = ![b.val, 0])

/-! ## A block's activation is the whole-array activation at the block's place -/

/-- If block row `p` of `a` is row `P` of the samples, `b` is the centres and entry `q` of `s` is `1 / exp ℓ[q]`, the
    block's activation at (p, q) is the reciprocal-factor form at (P, q). -/
theorem block_is_rbf (X : FVec Ideal S131072x128 .f32) (C : FVec Ideal S512x128 .f32) (L : FVec Ideal S512 .f32)
    (a : FVec Ideal S2048x128 .f32) (b : FVec Ideal S512x128 .f32) (s : FVec Ideal S1x512 .f32)
    (p : Fin 2048) (q : Fin 512) (P : Fin 131072)
    (ha : ∀ k : Fin 128, a (ix2 p k) = X (ix2 P k)) (hb : ∀ k : Fin 128, b (ix2 q k) = C (ix2 q k))
    (hs : s (ix2 (0 : Fin 1) q) = Ideal.div (Ideal.ofBits .f32 0x3F800000#32) (Ideal.exp (L (ix1 q)))) :
    blockAct a b s p q = rbfMul X C L (ix2 P q) := by
  unfold blockAct blockSqDist rbfMul dist sqDist
  simp only [ha, hb, hs]

/-! ## What a point writes back -/

/-- WHAT POINT `t` WRITES BACK is block `t` of the reciprocal-factor form of the argument arrays. -/
theorem flushed_eq (c : Dev nD) (t : Fin cfg0.N) :
    (dats m 0 c).flushed 3 t = ((cfg0.win 3).blk t).view.read (Elt Ideal) (rbfMul (m ((c : Thread nD τ).loc main_arg0)) (m ((c : Thread nD τ).loc main_arg1)) (m ((c : Thread nD τ).loc main_arg2))) := by
  rw [Cert.KernelIdeal.Value.flushed3]
  unfold out0_3
  rw [View.canon_unit_zero hz]
  simp only [View.ld_unit_zero (S := S2048x128) hz, View.ld_unit_zero (S := S512x128) hz, View.ld_unit_zero (S := S1x512) hz]
  obtain ⟨e0, e1, e2, e3, e4, e5, e6, e7⟩ := idx_facts t
  funext j
  obtain ⟨p, q, rfl⟩ : ∃ (p : Fin 2048) (q : Fin 512), j = ix2 p q := ⟨j 0, j 1, eq_ix2 j⟩
  have hp : p.val < 2048 := p.isLt
  have hP : win0_3.index t (0 : Fin 2) * 2048 + p.val < 131072 := by omega
  have hemb : ((cfg0.win 3).blk t).view.emb (ix2 p q) = ix2 (⟨win0_3.index t (0 : Fin 2) * 2048 + p.val, hP⟩ : Fin 131072) q :=
    funext fun a => Fin.ext (by
      match a with
      | ⟨0, _⟩ => show win0_3.index t (0 : Fin 2) * 2048 + 1 * p.val = win0_3.index t (0 : Fin 2) * 2048 + p.val; omega
      | ⟨1, _⟩ => show win0_3.index t (1 : Fin 2) * 512 + 1 * q.val = q.val; omega)
  have ha : ∀ k : Fin 128, iblk m c 0 t (ix2 p k) = (m ((c : Thread nD τ).loc main_arg0)) (ix2 (⟨win0_3.index t (0 : Fin 2) * 2048 + p.val, hP⟩ : Fin 131072) k) := fun k => by
    show V m c main_arg0 (((cfg0.win 0).blk t).view.emb (ix2 p k)) = _
    rw [V_main_arg0]
    refine congrArg _ (funext fun a => Fin.ext ?_)
    match a with
    | ⟨0, _⟩ => show win0_0.index t (0 : Fin 2) * 2048 + 1 * p.val = win0_3.index t (0 : Fin 2) * 2048 + p.val; omega
    | ⟨1, _⟩ => show win0_0.index t (1 : Fin 2) * 128 + 1 * k.val = k.val; omega
  have hb : ∀ k : Fin 128, iblk m c 1 t (ix2 q k) = (m ((c : Thread nD τ).loc main_arg1)) (ix2 q k) := fun k => by
    show V m c main_arg1 (((cfg0.win 1).blk t).view.emb (ix2 q k)) = _
    rw [V_main_arg1]
    refine congrArg _ (funext fun a => Fin.ext ?_)
    match a with
    | ⟨0, _⟩ => show win0_1.index t (0 : Fin 2) * 512 + 1 * q.val = q.val; omega
    | ⟨1, _⟩ => show win0_1.index t (1 : Fin 2) * 128 + 1 * k.val = k.val; omega
  have hs : iblk m c 2 t (ix2 (0 : Fin 1) q) = Ideal.div (Ideal.ofBits .f32 0x3F800000#32) (Ideal.exp ((m ((c : Thread nD τ).loc main_arg2)) (ix1 q))) := by
    show V m c main_v3 (((cfg0.win 2).blk t).view.emb (ix2 (0 : Fin 1) q)) = _
    have h2 : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 512 + 1 * q.val = q.val; omega)
    rw [h2]
    exact widths_at m c q
  show k0_pay1 (F := Ideal) (iblk m c 0 t) (iblk m c 1 t) (iblk m c 2 t) (ix2 p q)
    = rbfMul (m ((c : Thread nD τ).loc main_arg0)) (m ((c : Thread nD τ).loc main_arg1)) (m ((c : Thread nD τ).loc main_arg2)) (((cfg0.win 3).blk t).view.emb (ix2 p q))
  refine ((pay_apply (iblk m c 0 t) (iblk m c 1 t) (iblk m c 2 t) p q).trans ?_).trans
    (congrArg (rbfMul (m ((c : Thread nD τ).loc main_arg0)) (m ((c : Thread nD τ).loc main_arg1)) (m ((c : Thread nD τ).loc main_arg2))) hemb.symm)
  exact block_is_rbf (m ((c : Thread nD τ).loc main_arg0)) (m ((c : Thread nD τ).loc main_arg1)) (m ((c : Thread nD τ).loc main_arg2)) (iblk m c 0 t) (iblk m c 1 t) (iblk m c 2 t) p q _ ha hb hs

/-! ## The blocks tile the output -/

/-- An index of the output is in point `t`'s block iff each coordinate is in the block's range on its axis. -/
theorem mem_blk (t : Fin cfg0.N) (i : S131072x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v4).slice (win0_3.rect t)).set ↔ _
  rw [View.set_slice_whole, Rect.mem_set_unit]
  exact Iff.rfl

/-- Every output index is in the block of the point that owns its row: row `r` belongs to block `r / 2048`. -/
theorem cover (i : S131072x512.Idx) : ∃ t : Fin cfg0.N, (cfg0.win 3).flush t = true ∧ i ∈ ((cfg0.win 3).blk t).view.set := by
  have hi0 : (i 0).val < 131072 := (i 0).isLt
  have hi1 : (i 1).val < 512 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- THE OUTPUT ARRAY after the run is the reciprocal-factor form of the argument arrays. -/
theorem final (c : Dev nD) : (dats m 0 c).arrAt 3 cfg0.N = rbfMul (m ((c : Thread nD τ).loc main_arg0)) (m ((c : Thread nD τ).loc main_arg1)) (m ((c : Thread nD τ).loc main_arg2)) :=
  (dats m 0 c).arrAt_eq_of_cover 3 (rbfMul (m ((c : Thread nD τ).loc main_arg0)) (m ((c : Thread nD τ).loc main_arg1)) (m ((c : Thread nD τ).loc main_arg2))) (fun t _ => flushed_eq m c t) cover

/-! ## The run, read -/

/-- Every weakly fair execution of the idealized kernel ends with the output at the reciprocal-factor form of the
    arguments, and the arguments unchanged. -/
theorem run : θ_run defs (onTc (τ := τ) (main (F := Ideal))) ⟨m, fun _ => 0, ρ⟩ fun r => ∀ c : Dev nD,
      r.2.mem ((c : Thread nD τ).loc main_v4) = rbfMul (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Rbf.Array

end
-- ==== Proof.Finite.lean ====
/-
  The precondition read back: every log-width is a real number.

  The precondition says, of each input array, that every entry's absolute value is below +∞. On the extended reals
  `|x| = max x (−x)`, which is +∞ at both infinities, so an entry with `|x| < +∞` is neither infinity: it is a real.
  The proof of the certificate needs this of the log-widths only (their exponential must be a nonzero real for the
  quotient to be a product with a reciprocal).
-/
import proofs.«118641_j68968584839825_1_alg».proof.Pre_finite_inputs
import Idealize.ShloMosaic.PureOps.Ideal
import Idealize.ShloMosaic.Lib.ReduceAll
import Idealize.ShloMosaic.Lib.ValueIdx

noncomputable section

namespace Cert.Rbf.Finite

open Idealize.ShloMosaic Idealize.ShloMosaic.ValueIdx Cert.Pre_finite_inputs

/-- The rank-0 shape has one index. -/
instance : Subsingleton S_.Idx := ⟨fun a b => funext fun d => d.elim0⟩

/-- The float pattern of +∞ is the top extended real. -/
theorem inf_word : Ideal.ofBits .f32 0x7F800000#32 = ⊤ := by simp [Ideal.ofBits, Ideal.ieee]

/-- An extended real whose absolute value is strictly below +∞ is a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec
  · exfalso; revert h; simp [Ideal.cmp]
  · exact ⟨_, rfl⟩
  · exfalso; revert h; simp [Ideal.cmp]

/-- Under the precondition every log-width is a real. -/
theorem widths_real [Cert.Pre_finite_inputs.Facts] (x : FVec Ideal S131072x128 .f32) (c : FVec Ideal S512x128 .f32)
    (l : FVec Ideal S512 .f32) (h : Cert.Pre_finite_inputs.fn (F := Ideal) x c l = fun _ => 1#1) (q : Fin 512) :
    ∃ r : ℝ, l (ix1 q) = (r : EReal) := by
  have h0 := congrFun h ix0
  dsimp only [Cert.Pre_finite_inputs.fn] at h0
  obtain ⟨-, hl⟩ := IntOp.andi_eq_one.1 h0
  have hq : Ideal.cmp .olt (max (l (ix1 q)) (-(l (ix1 q)))) (Ideal.ofBits .f32 0x7F800000#32) = 1#1 :=
    Host.reduce_andi_all _ _ _ _ ix0 hl (ix1 q)
  exact real_of_abs_lt_inf _ hq

end Cert.Rbf.Finite

end
-- ==== Proof.lean ====
/-
  A radial-basis layer on 131072 samples of 128 features against 512 centres:
      out[p, q] = exp (−(‖x[p] − c[q]‖ / σ[q])²),   σ[q] = exp ℓ[q],
  with the squared distance taken in its expanded form `Σ x² − 2·Σ x·c + Σ c²` and clamped at zero before the root.

  The kernel works block by block: 64 grid points, each on 2048 sample rows against all the centres, the inner
  products by a matrix product whose operands are first narrowed to a shorter float format, and the width entering
  as a factor `1 / exp ℓ[q]` computed once before the launch. The reference is whole-array: one matrix product
  of the full arrays, the root DIVIDED by `exp ℓ[q]`.

  On the extended reals a change of float format is the identity, a matrix product into a zero accumulator and a
  lane reduction are plain sums over the 128 features, so both programs compute the same expanded distance, literal
  for literal. They differ in `r · (1 / e)` against `r / e` and in `0 − y` against `−y`. The second is an identity
  of the extended reals. The first holds because `e = exp ℓ[q]` is a NONZERO REAL when `ℓ[q]` is a real — there a
  quotient is the product with the reciprocal, whatever `r` is —, and that `ℓ[q]` is a real is what the
  precondition (every input entry's absolute value below +∞) gives.

  The modules: `RbfSpec` states the two forms of the activation and proves them equal for real log-widths;
  `RefValue` reads the reference's result as the divisor form; `KernelValue` reads what the kernel's body stores at
  an index of its block; `KernelArray` carries that from the 64 blocks to the whole output array (the
  reciprocal-factor form); `Finite` reads the precondition back. The kernel's ideal pass rewrote nothing, so
  `preserves` has nothing to state.
-/
import proofs.«118641_j68968584839825_1_alg».proof.Defs
import proofs.«118641_j68968584839825_1_alg».proof.Proof.Gen.Kernel
import proofs.«118641_j68968584839825_1_alg».proof.Proof.Gen.Kernel.Skeleton
import proofs.«118641_j68968584839825_1_alg».proof.Proof.Gen.Kernel.Launch
import proofs.«118641_j68968584839825_1_alg».proof.Proof.Gen.Kernel.Points
import proofs.«118641_j68968584839825_1_alg».proof.Proof.Gen.Kernel.Frame
import proofs.«118641_j68968584839825_1_alg».proof.Proof.Gen.KernelIdeal
import proofs.«118641_j68968584839825_1_alg».proof.Proof.Gen.KernelIdeal.Skeleton
import proofs.«118641_j68968584839825_1_alg».proof.Proof.Gen.KernelIdeal.Launch
import proofs.«118641_j68968584839825_1_alg».proof.Proof.Gen.KernelIdeal.Points
import proofs.«118641_j68968584839825_1_alg».proof.Proof.Gen.KernelIdeal.Frame
import proofs.«118641_j68968584839825_1_alg».proof.Proof.Gen.ReferenceIdeal
import proofs.«118641_j68968584839825_1_alg».proof.Proof.Gen.Pre_finite_inputs
import proofs.«118641_j68968584839825_1_alg».proof.Proof.Gen.KernelIdeal.Value
import proofs.«118641_j68968584839825_1_alg».proof.Proof.Gen.ReferenceIdeal.Run
import proofs.«118641_j68968584839825_1_alg».proof.Proof.Gen.ReferenceIdeal.Read
import proofs.«118641_j68968584839825_1_alg».proof.Proof.RbfSpec
import proofs.«118641_j68968584839825_1_alg».proof.Proof.RefValue
import proofs.«118641_j68968584839825_1_alg».proof.Proof.KernelValue
import proofs.«118641_j68968584839825_1_alg».proof.Proof.KernelArray
import proofs.«118641_j68968584839825_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of whole-array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- Both idealized programs end with the output at the reciprocal-factor form of the activation: the kernel's
    64 blocks tile it, and the reference's divisor form is the same function because every log-width is a real. -/
theorem algebraic : Cert.algebraic_KernelIdeal_ReferenceIdeal := by
  intro m ρ m' ρ' hpre hagree
  refine ⟨_, Cert.Rbf.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v23_eq _ _ _).trans
    ((Cert.Rbf.Reference.result_eq _ _ _).trans
      (Cert.Rbf.rbfDiv_eq_rbfMul _ _ _ fun q => Cert.Rbf.Finite.widths_real _ _ _ (hpre c) q))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
